-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S1600000 32) (main_arg2 : IVec S1600000 32) (main_arg3 : FVec F S64x64 .f32) (main_arg4 : FVec F S64 .f32) (main_arg5 : FVec F S64x64 .f32) (main_arg6 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_v13 main_v16
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩
abbrev S10000x64 : Shape := ⟨2, ![10000, 64]⟩
abbrev S10000x1 : Shape := ⟨2, ![10000, 1]⟩

abbrev nBuf : Space → Nat
  | .hbm => 57
  | .vmem => 16
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .i1⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x64, .f32⟩
  | .hbm, ⟨36, _⟩ => ⟨S_, .f32⟩
  | .hbm, ⟨37, _⟩ => ⟨S100000x64, .f32⟩
  | .hbm, ⟨38, _⟩ => ⟨S1600000x1, .i32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .f32⟩
  | .hbm, ⟨51, _⟩ => ⟨S_, .f32⟩
  | .hbm, ⟨52, _⟩ => ⟨S100000x64, .f32⟩
  | .hbm, ⟨53, _⟩ => ⟨S1600000x1, .i32⟩
  | .hbm, ⟨54, _⟩ => ⟨S100000x64, .f32⟩
  | .hbm, ⟨55, _⟩ => ⟨S1x64, .f32⟩
  | .hbm, ⟨56, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x1, .f32⟩
  | .local _ .vmem, ⟨3, _⟩ => ⟨S10000x1, .f32⟩
  | .local _ .vmem, ⟨4, _⟩ => ⟨S64x64, .f32⟩
  | .local _ .vmem, ⟨5, _⟩ => ⟨S1x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x1, .f32⟩
  | .local _ .vmem, ⟨11, _⟩ => ⟨S10000x1, .f32⟩
  | .local _ .vmem, ⟨12, _⟩ => ⟨S64x64, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_cst_4 : Ref sig .tc := ⟨.hbm, 22, rfl⟩
abbrev main_call0_v0 : Ref sig .tc := ⟨.hbm, 23, rfl⟩
abbrev main_call0_v1 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_6 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_7 : Ref sig .tc := ⟨.hbm, 42, rfl⟩
abbrev main_v24 : Ref sig .tc := ⟨.hbm, 43, rfl⟩
abbrev main_v25 : Ref sig .tc := ⟨.hbm, 44, rfl⟩
abbrev main_c_8 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_9 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x64.size a ≤ S100000x64.size a
  hwx0_4 : ∀ i : grid0.Coords, EltTy.bits .f32 = 32 ∨ (Rect.block (s := S100000x64) S10000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v21) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S10000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v33) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩

abbrev nBuf : Space → Nat
  | .hbm => 97
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .i1⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x64, .f32⟩
  | .hbm, ⟨36, _⟩ => ⟨S_, .f32⟩
  | .hbm, ⟨37, _⟩ => ⟨S100000x64, .f32⟩
  | .hbm, ⟨38, _⟩ => ⟨S1600000x1, .i32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S64x64, .f32⟩
  | .hbm, ⟨43, _⟩ => ⟨S100000x64, .f32⟩
  | .hbm, ⟨44, _⟩ => ⟨S1x64, .f32⟩
  | .hbm, ⟨45, _⟩ => ⟨S100000x64, .f32⟩
  | .hbm, ⟨46, _⟩ => ⟨S100000x64, .f32⟩
  | .hbm, ⟨47, _⟩ => ⟨S_, .f32⟩
  | .hbm, ⟨48, _⟩ => ⟨S100000x64, .f32⟩
  | .hbm, ⟨49, _⟩ => ⟨S100000x64, .i1⟩
  | .hbm, ⟨50, _⟩ => ⟨S_, .f32⟩
  | .hbm, ⟨51, _⟩ => ⟨S100000x64, .f32⟩
  | .hbm, ⟨52, _⟩ => ⟨S100000x64, .i1⟩
  | .hbm, ⟨53, _⟩ => ⟨S_, .f32⟩
  | .hbm, ⟨54, _⟩ => ⟨S_, .f32⟩
  | .hbm, ⟨55, _⟩ => ⟨S100000x64, .f32⟩
  | .hbm, ⟨56, _⟩ => ⟨S100000x64, .f32⟩
  | .hbm, ⟨57, _⟩ => ⟨S100000x64, .f32⟩
  | .hbm, ⟨58, _⟩ => ⟨S_, .f32⟩
  | .hbm, ⟨59, _⟩ => ⟨S100000x64, .f32⟩
  | .hbm, ⟨60, _⟩ => ⟨S100000x64, .f32⟩
  | .hbm, ⟨61, _⟩ => ⟨S100000x64, .f32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x64, .f32⟩
  | .hbm, ⟨71, _⟩ => ⟨S_, .f32⟩
  | .hbm, ⟨72, _⟩ => ⟨S100000x64, .f32⟩
  | .hbm, ⟨73, _⟩ => ⟨S1600000x1, .i32⟩
  | .hbm, ⟨74, _⟩ => ⟨S100000x64, .f32⟩
  | .hbm, ⟨75, _⟩ => ⟨S100000x64, .f32⟩
  | .hbm, ⟨76, _⟩ => ⟨S100000x64, .f32⟩
  | .hbm, ⟨77, _⟩ => ⟨S64x64, .f32⟩
  | .hbm, ⟨78, _⟩ => ⟨S100000x64, .f32⟩
  | .hbm, ⟨79, _⟩ => ⟨S1x64, .f32⟩
  | .hbm, ⟨80, _⟩ => ⟨S100000x64, .f32⟩
  | .hbm, ⟨81, _⟩ => ⟨S100000x64, .f32⟩
  | .hbm, ⟨82, _⟩ => ⟨S_, .f32⟩
  | .hbm, ⟨83, _⟩ => ⟨S100000x64, .f32⟩
  | .hbm, ⟨84, _⟩ => ⟨S100000x64, .i1⟩
  | .hbm, ⟨85, _⟩ => ⟨S_, .f32⟩
  | .hbm, ⟨86, _⟩ => ⟨S100000x64, .f32⟩
  | .hbm, ⟨87, _⟩ => ⟨S100000x64, .i1⟩
  | .hbm, ⟨88, _⟩ => ⟨S_, .f32⟩
  | .hbm, ⟨89, _⟩ => ⟨S_, .f32⟩
  | .hbm, ⟨90, _⟩ => ⟨S100000x64, .f32⟩
  | .hbm, ⟨91, _⟩ => ⟨S100000x64, .f32⟩
  | .hbm, ⟨92, _⟩ => ⟨S100000x64, .f32⟩
  | .hbm, ⟨93, _⟩ => ⟨S_, .f32⟩
  | .hbm, ⟨94, _⟩ => ⟨S100000x64, .f32⟩
  | .hbm, ⟨95, _⟩ => ⟨S100000x64, .f32⟩
  | .hbm, ⟨96, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_cst_4 : Ref sig .tc := ⟨.hbm, 22, rfl⟩
abbrev main_call0_v0 : Ref sig .tc := ⟨.hbm, 23, rfl⟩
abbrev main_call0_v1 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_6 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_call1_cst : Ref sig .tc := ⟨.hbm, 47, rfl⟩
abbrev main_call1_v0 : Ref sig .tc := ⟨.hbm, 48, rfl⟩
abbrev main_call1_v1 : Ref sig .tc := ⟨.hbm, 49, rfl⟩
abbrev main_call1_cst_0 : Ref sig .tc := ⟨.hbm, 50, rfl⟩
abbrev main_call1_v2 : Ref sig .tc := ⟨.hbm, 51, rfl⟩
abbrev main_call1_v3 : Ref sig .tc := ⟨.hbm, 52, rfl⟩
abbrev main_call1_cst_1 : Ref sig .tc := ⟨.hbm, 53, rfl⟩
abbrev main_call1_call0_v0 : Ref sig .tc := ⟨.hbm, 54, rfl⟩
abbrev main_call1_call0_v1 : Ref sig .tc := ⟨.hbm, 55, rfl⟩
abbrev main_call1_v4 : Ref sig .tc := ⟨.hbm, 56, rfl⟩
abbrev main_call1_v5 : Ref sig .tc := ⟨.hbm, 57, rfl⟩
abbrev main_call1_cst_2 : Ref sig .tc := ⟨.hbm, 58, rfl⟩
abbrev main_call1_v6 : Ref sig .tc := ⟨.hbm, 59, rfl⟩
abbrev main_call1_v7 : Ref sig .tc := ⟨.hbm, 60, rfl⟩
abbrev main_v29 : Ref sig .tc := ⟨.hbm, 61, rfl⟩
abbrev main_c_7 : Ref sig .tc := ⟨.hbm, 62, rfl⟩
abbrev main_v30 : Ref sig .tc := ⟨.hbm, 63, rfl⟩
abbrev main_v31 : Ref sig .tc := ⟨.hbm, 64, rfl⟩
abbrev main_c_8 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_cst_9 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_call2_cst : Ref sig .tc := ⟨.hbm, 82, rfl⟩
abbrev main_call2_v0 : Ref sig .tc := ⟨.hbm, 83, rfl⟩
abbrev main_call2_v1 : Ref sig .tc := ⟨.hbm, 84, rfl⟩
abbrev main_call2_cst_0 : Ref sig .tc := ⟨.hbm, 85, rfl⟩
abbrev main_call2_v2 : Ref sig .tc := ⟨.hbm, 86, rfl⟩
abbrev main_call2_v3 : Ref sig .tc := ⟨.hbm, 87, rfl⟩
abbrev main_call2_cst_1 : Ref sig .tc := ⟨.hbm, 88, rfl⟩
abbrev main_call2_call0_v0 : Ref sig .tc := ⟨.hbm, 89, rfl⟩
abbrev main_call2_call0_v1 : Ref sig .tc := ⟨.hbm, 90, rfl⟩
abbrev main_call2_v4 : Ref sig .tc := ⟨.hbm, 91, rfl⟩
abbrev main_call2_v5 : Ref sig .tc := ⟨.hbm, 92, rfl⟩
abbrev main_call2_cst_2 : Ref sig .tc := ⟨.hbm, 93, rfl⟩
abbrev main_call2_v6 : Ref sig .tc := ⟨.hbm, 94, rfl⟩
abbrev main_call2_v7 : Ref sig .tc := ⟨.hbm, 95, rfl⟩
abbrev main_v47 : Ref sig .tc := ⟨.hbm, 96, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.RefSpec.lean ====
/-
  The reference's value as ONE function of its argument arrays, stage by stage, at any float instance.

  Two graph-convolution layers over the same edge list. With N = 100000 nodes, E = 1600000 edges and D = 64 features:
  * `invDeg dst`: the in-degree of node n is the number of edges whose destination is n (a scatter-add of ones
    into zeros); the column holds 1 / max(deg n, 1) where deg n > 0, else 0.
  * `aggr x src dst`: row n is the sum, over the edges e with destination n, of row `src e` of x (a negative
    source index first wrapped by N); a gather of rows followed by a scatter-add of rows into zeros.
  * `affine agg inv W b`: (agg ⊙ inv) · Wᵀ + b, the mean over incoming neighbours through a linear layer.
  * `elu y`: y where y > 0, else 1 · (e^s − 1) with s = 0 where y > 0 and y elsewhere.
  * `out`: elu ∘ affine ∘ aggr, twice, the second layer reading the first layer's result.
-/
import proofs.«149167_j64725157151108_1_alg».proof.ReferenceIdeal
import proofs.«149167_j64725157151108_1_alg».proof.Proof.Gen.ReferenceIdeal

noncomputable section

namespace Cert.ReferenceIdeal.Spec

open Cert.ReferenceIdeal Cert.ReferenceIdeal.Gen Idealize.ShloMosaic

variable {F : FTy → Type} [FloatOps F]

/-- The in-degree of every node: ones scattered-added into zeros at the destinations. -/
def degree (dst : IVec S1600000 32) : FVec F S100000 .f32 :=
  Host.scatterAdd scatter_S100000_S1600000x1_S1600000_n_0_0_1
    (broadcastInDim S100000 ![] bcast_S_S100000 (constant S_ .f32 0x00000000#32))
    (broadcastInDim S1600000x1 ![0] bcast_S1600000_S1600000x1_0 dst)
    (broadcastInDim S1600000 ![] bcast_S_S1600000 (constant S_ .f32 0x3F800000#32))

/-- The reciprocal in-degree as a column: 1 / max(deg, 1) where deg > 0, else 0. -/
def invDeg (dst : IVec S1600000 32) : FVec F S100000x1 .f32 :=
  broadcastInDim S100000x1 ![0] bcast_S100000_S100000x1_0
    (select (cmpf .ogt (degree (F := F) dst) (broadcastInDim S100000 ![] bcast_S_S100000 (constant S_ .f32 0x00000000#32)))
      (Host.divf (broadcastInDim S100000 ![] bcast_S_S100000 (constant S_ .f32 0x3F800000#32))
        (maximumf (degree (F := F) dst) (broadcastInDim S100000 ![] bcast_S_S100000 (constant S_ .f32 0x3F800000#32))))
      (broadcastInDim S100000 ![] bcast_S_S100000 (id (constant S_ .f32 0x00000000#32))))

/-- The source indices as the gather reads them: a negative index wrapped by N, then one index per row. -/
def srcIdx (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- Neighbour aggregation: the rows of `x` at the edges' sources, summed at the edges' destinations. -/
def aggr (x : FVec F S100000x64 .f32) (src dst : IVec S1600000 32) : FVec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst)
    (Host.gather gather_S100000x64_S1600000x1_S1600000x64_1_0_n_n_0_1_164 x (srcIdx src))

/-- The linear layer on the mean: (agg ⊙ inv) · Wᵀ + b, the bias given as one row. -/
def affine (agg : FVec F S100000x64 .f32) (inv : FVec F S100000x1 .f32) (W : FVec F S64x64 .f32) (brow : FVec F S1x64 .f32) :
    FVec F S100000x64 .f32 :=
  addf
    (Host.dotGeneral dot_S100000x64_S64x64_S100000x64_1_0_0_1_n_n none
      (mulf agg (broadcastInDim S100000x64 ![0, 1] bcast_S100000x1_S100000x64_0_1 inv))
      (transpose S64x64 [1, 0] W transposes_S64x64_S64x64_1_0))
    (broadcastInDim S100000x64 ![0, 1] bcast_S1x64_S100000x64_0_1 brow)

/-- jax's ELU: y where y > 0, else 1 · expm1 (0 where y > 0, y elsewhere). -/
def elu (y : FVec F S100000x64 .f32) : FVec F S100000x64 .f32 :=
  select (cmpf .ogt y (broadcastInDim S100000x64 ![] bcast_S_S100000x64 (constant S_ .f32 0x00000000#32))) y
    (mulf (broadcastInDim S100000x64 ![] bcast_S_S100000x64 (constant S_ .f32 0x3F800000#32))
      (Host.expm1
        (select (cmpf .ogt y (broadcastInDim S100000x64 ![] bcast_S_S100000x64 (constant S_ .f32 0x00000000#32)))
          (broadcastInDim S100000x64 ![] bcast_S_S100000x64 (id (constant S_ .f32 0x00000000#32))) y)))

/-- One layer over a bias given as one row. -/
def layerRow (x : FVec F S100000x64 .f32) (src dst : IVec S1600000 32) (W : FVec F S64x64 .f32) (brow : FVec F S1x64 .f32) :
    FVec F S100000x64 .f32 :=
  elu (affine (aggr x src dst) (invDeg dst) W brow)

/-- One layer: the bias vector laid out as one row first. -/
def layer (x : FVec F S100000x64 .f32) (src dst : IVec S1600000 32) (W : FVec F S64x64 .f32) (b : FVec F S64 .f32) :
    FVec F S100000x64 .f32 :=
  layerRow x src dst W (broadcastInDim S1x64 ![1] bcast_S64_S1x64_1 b)

/-- The reference's result: two layers. -/
def out (h : FVec F S100000x64 .f32) (src dst : IVec S1600000 32) (W1 : FVec F S64x64 .f32) (b1 : FVec F S64 .f32)
    (W2 : FVec F S64x64 .f32) (b2 : FVec F S64 .f32) : FVec F S100000x64 .f32 :=
  layer (layer h src dst W1 b1) src dst W2 b2

end Cert.ReferenceIdeal.Spec

end
-- ==== Proof.Layer.lean ====
/-
  One dense layer, element by element, on both sides.

  The kernel's body at one grid point takes a block of 10000 rows of the aggregated features `x0`, the matching
  10000 reciprocal degrees `x1` (one column), the whole weight matrix `x2` and the bias row `x3`, and stores
      select (y > 0) y (e^y − 1),   y (p, q) = Σ_k (x0 (p, k) · x1 (p, 0)) · x2 (q, k) + x3 (0, q)
  (the change of float format is the identity on extended reals, the matrix product into a zero accumulator is
  the plain sum over the one contracted axis, the transposed weights read `x2` at the swapped index).
  The reference's layer on the whole arrays is, at row r and column q,
      select (y > 0) y (1 · (e^s − 1)),   s = select (y > 0) 0 y,
  with the same y at the whole arrays: where y > 0 both are y, elsewhere s = y and 1 · z = z. So a block of the
  kernel's result is the same block of the reference's layer, whenever the kernel's blocks are the blocks of the
  reference's operands.
-/
import proofs.«149167_j64725157151108_1_alg».proof.Proof.RefSpec
import proofs.«149167_j64725157151108_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

/-! ## What both sides select between -/

namespace Cert.Layer

open Idealize.ShloMosaic Idealize.ShloMosaic.ValueIdx

/-- The layer's value at one element from its pre-activation `y`, as the kernel writes it. -/
def act (y : EReal) : EReal := Scalar.select (Ideal.cmp .ogt y 0) y (Ideal.exp y - 1)

/-- jax's form of the same activation: the exponential is taken of 0 where y > 0 (the branch not selected),
    and the result is multiplied by the slope 1. -/
theorem act_eq (y : EReal) :
    Scalar.select (Ideal.cmp .ogt y 0) y (1 * (Ideal.exp (Scalar.select (Ideal.cmp .ogt y 0) 0 y) - 1)) = act y := by
  unfold act
  by_cases h : Ideal.cmp .ogt y 0 = 1#1
  · rw [h, select_one, select_one]
  · rw [eq_zero_of_ne_one h, select_zero, select_zero, select_zero, one_mul]

/-- jax's form as a function of the pre-activation. -/
def actJ (y : EReal) : EReal :=
  Scalar.select (Ideal.cmp .ogt y 0) y (1 * (Ideal.exp (Scalar.select (Ideal.cmp .ogt y 0) 0 y) - 1))

theorem actJ_eq (y : EReal) : actJ y = act y := act_eq y

/-- The pre-activation at row `r`, column `q`: the scaled row of `agg` against row `q` of `W`, plus the bias. -/
def pre {n : Nat} (agg : (⟨2, ![n, 64]⟩ : Shape).Idx → EReal) (inv : (⟨2, ![n, 1]⟩ : Shape).Idx → EReal)
    (W : (⟨2, ![64, 64]⟩ : Shape).Idx → EReal) (brow : (⟨2, ![1, 64]⟩ : Shape).Idx → EReal) (r : Fin n) (q : Fin 64) : EReal :=
  (∑ k : Fin 64, (agg (ix2 r k) * inv (ix2 r (0 : Fin 1))) * W (ix2 q k)) + brow (ix2 (0 : Fin 1) q)

/-- A column broadcast along the rows reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The same for the host's `broadcast_in_dim` of a column over the two axes in order. -/
theorem broadcastInDim_a1_ab_apply {α : Type} {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- … and of one row over the two axes in order: at `(p, c)` the row's entry of column `c`. -/
theorem broadcastInDim_1b_ab_apply {α : Type} {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A scalar broadcast to any shape reads the scalar everywhere. -/
theorem broadcastInDim_scalar_apply {α : Type} {t : Shape} (v : (⟨0, ![]⟩ : Shape).Idx → α)
    (h : (⟨0, ![]⟩ : Shape).BroadcastsInDim t ![]) (j : t.Idx) :
    broadcastInDim t ![] h v j = v ix0 :=
  broadcastInDim_apply ![] h v j ix0 fun ax => ax.elim0

theorem one_f32 : Ideal.ofBits .f32 0x3F800000#32 = 1 := IdealRules.sign_bit.ideal_onePat .f32

/-- The exponential of a vector, at an element. -/
theorem exp_apply {s : Shape} {φ : FTy} (x : FVec Ideal s φ) (i : s.Idx) : exp x i = Ideal.exp (x i) := rfl

/-- The host's `expm1` of a vector, at an element. -/
theorem expm1_apply {s : Shape} {φ : FTy} (x : FVec Ideal s φ) (i : s.Idx) : Host.expm1 x i = Ideal.exp (x i) - 1 := rfl

end Cert.Layer

/-! ## The kernel's payload at an element -/

namespace Cert.KernelIdeal.Bridge

open Cert.KernelIdeal Cert.KernelIdeal.Gen Idealize.ShloMosaic Idealize.ShloMosaic.ValueIdx Cert.Layer

theorem lhs_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl
theorem lhs_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- The kernel's matrix product into the zero accumulator, at `(p, q)`: the sum over the contracted axis. -/
theorem matmul_at (a : FVec Ideal S10000x64 .bf16) (b : FVec Ideal S64x64 .bf16) (p : Fin 10000) (q : Fin 64) :
    matmul dot_S10000x64_S64x64_S10000x64_1_0_0_1_n_n none a b (constant (F := Ideal) S10000x64 .f32 0x00000000#32) (ix2 p q)
      = ∑ k : Fin 64, a (ix2 p k) * b (ix2 k q) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs_0 _ _
    | ⟨1, _⟩ => exact (lhs_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs_0 _ _).trans hk
    | ⟨1, _⟩ => exact rhs_1 _ _)
  rw [el, er]

/-- The transposed weights (their change of format the identity) read the weights at the swapped index. -/
theorem wT_apply (x2 : Vec Ideal S64x64 .f32) (k q : Fin 64) :
    transpose S64x64 [1, 0] (truncf (F := Ideal) .bf16 x2 bitsLt_bf16_f32) transposes_S64x64_p1_0_S64x64 (ix2 k q) = (x2 (ix2 q k) : Ideal .bf16) :=
  transpose_ix2_apply (a := 64) (b := 64) (truncf (F := Ideal) .bf16 x2 bitsLt_bf16_f32) transposes_S64x64_p1_0_S64x64 k q

/-- The product with the transposed weights: row `p` of the left operand against row `q` of the weights. -/
theorem matmul_wT_at (a : FVec Ideal S10000x64 .bf16) (x2 : Vec Ideal S64x64 .f32) (p : Fin 10000) (q : Fin 64) :
    matmul dot_S10000x64_S64x64_S10000x64_1_0_0_1_n_n none a (transpose S64x64 [1, 0] (truncf (F := Ideal) .bf16 x2 bitsLt_bf16_f32) transposes_S64x64_p1_0_S64x64)
        (constant (F := Ideal) S10000x64 .f32 0x00000000#32) (ix2 p q)
      = ∑ k : Fin 64, a (ix2 p k) * (x2 (ix2 q k) : Ideal .bf16) :=
  (matmul_at a _ p q).trans (Finset.sum_congr rfl fun k _ => congrArg (a (ix2 p k) * ·) (wT_apply x2 k q))

/-- The first call's payload at `(p, q)`. -/
theorem pay0_apply (x0 : Vec Ideal S10000x64 .f32) (x1 : Vec Ideal S10000x1 .f32) (x2 : Vec Ideal S64x64 .f32) (x3 : Vec Ideal S1x64 .f32)
    (p : Fin 10000) (q : Fin 64) :
    k0_pay1 (F := Ideal) x0 x1 x2 x3 (ix2 p q) = act (pre x0 x1 x2 x3 p q) := by
  have h1 : k0_pay1 (F := Ideal) x0 x1 x2 x3 (ix2 p q)
      = act (matmul dot_S10000x64_S64x64_S10000x64_1_0_0_1_n_n none
            (truncf (F := Ideal) .bf16 (mulf x0 (broadcastTo S10000x64 x1 broadcasts_S10000x1_S10000x64)) bitsLt_bf16_f32)
            (transpose S64x64 [1, 0] (truncf (F := Ideal) .bf16 x2 bitsLt_bf16_f32) transposes_S64x64_p1_0_S64x64)
            (constant (F := Ideal) S10000x64 .f32 0x00000000#32) (ix2 p q)
          + broadcastTo S10000x64 x3 broadcasts_S1x64_S10000x64 (ix2 p q)) := by
    unfold k0_pay1 act
    simp only [select_apply, cmpf_apply, addf_apply, subf_apply, broadcast_apply, shapeCast_self, exp_apply,
      Ideal.cmpf_def, Ideal.ofBits_def, Ideal.ofBits_zero_f32, one_f32]
  rw [h1, matmul_wT_at, broadcastTo_1b_ab_apply]
  unfold pre
  refine congrArg act (congrArg (· + x3 (ix2 (0 : Fin 1) q)) (Finset.sum_congr rfl fun k _ => ?_))
  rw [truncf_apply, mulf_apply, broadcastTo_a1_ab_apply]

/-- The second call's payload is the same function. -/
theorem pay1_apply (x0 : Vec Ideal S10000x64 .f32) (x1 : Vec Ideal S10000x1 .f32) (x2 : Vec Ideal S64x64 .f32) (x3 : Vec Ideal S1x64 .f32)
    (p : Fin 10000) (q : Fin 64) :
    k1_pay1 (F := Ideal) x0 x1 x2 x3 (ix2 p q) = act (pre x0 x1 x2 x3 p q) :=
  pay0_apply x0 x1 x2 x3 p q

end Cert.KernelIdeal.Bridge

/-! ## The reference's layer at an element -/

namespace Cert.ReferenceIdeal.Bridge

open Cert.ReferenceIdeal Cert.ReferenceIdeal.Gen Idealize.ShloMosaic Idealize.ShloMosaic.ValueIdx Cert.Layer

theorem lhs_0 (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide),
    dif_pos (show (0 : Fin S100000x64.rank) ∈ dot_S100000x64_S64x64_S100000x64_1_0_0_1_n_n.lhsNonContracting by decide)]
  rfl
theorem lhs_1 (i : S100000x64.Idx) (q : dot_S100000x64_S64x64_S100000x64_1_0_0_1_n_n.contr.Idx) :
    (dot_S100000x64_S64x64_S100000x64_1_0_0_1_n_n.lhsIdx i q 1).val = (q ⟨0, by decide⟩).val :=
  dot_S100000x64_S64x64_S100000x64_1_0_0_1_n_n.lhsIdx_val_of_single rfl i q
theorem rhs_0 (i : S100000x64.Idx) (q : dot_S100000x64_S64x64_S100000x64_1_0_0_1_n_n.contr.Idx) :
    (dot_S100000x64_S64x64_S100000x64_1_0_0_1_n_n.rhsIdx i q 0).val = (q ⟨0, by decide⟩).val :=
  dot_S100000x64_S64x64_S100000x64_1_0_0_1_n_n.rhsIdx_val_of_single rfl i q
theorem rhs_1 (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide),
    dif_pos (show (1 : Fin S64x64.rank) ∈ dot_S100000x64_S64x64_S100000x64_1_0_0_1_n_n.rhsNonContracting by decide)]
  rfl

/-- The host's product at `(r, q)`: the sum over the contracted axis. -/
theorem dot_at (a : FVec Ideal S100000x64 .f32) (b : FVec Ideal S64x64 .f32) (r : Fin 100000) (q : Fin 64) :
    Host.dotGeneral dot_S100000x64_S64x64_S100000x64_1_0_0_1_n_n none a b (ix2 r q) = ∑ k : Fin 64, a (ix2 r k) * b (ix2 k q) := by
  simp only [Host.dotGeneral]
  rw [Ideal.dotGeneral_apply, ← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx (ix2 r q) ((contrEquiv1 dot_S100000x64_S64x64_S100000x64_1_0_0_1_n_n 64 rfl rfl).symm k) = ix2 r k := funext fun a => Fin.ext (by
    match a with
    | ⟨0, _⟩ => exact lhs_0 _ _
    | ⟨1, _⟩ => exact (lhs_1 _ _).trans hk)
  have er : dot_S100000x64_S64x64_S100000x64_1_0_0_1_n_n.rhsIdx (ix2 r q) ((contrEquiv1 dot_S100000x64_S64x64_S100000x64_1_0_0_1_n_n 64 rfl rfl).symm k) = ix2 k q := funext fun a => Fin.ext (by
    match a with
    | ⟨0, _⟩ => exact (rhs_0 _ _).trans hk
    | ⟨1, _⟩ => exact rhs_1 _ _)
  rw [el, er]

/-- The transposed weights read the weights at the swapped index. -/
theorem wT_apply (W : FVec Ideal S64x64 .f32) (k q : Fin 64) :
    transpose S64x64 [1, 0] W transposes_S64x64_S64x64_1_0 (ix2 k q) = W (ix2 q k) :=
  transpose_ix2_apply (a := 64) (b := 64) W transposes_S64x64_S64x64_1_0 k q

/-- The product with the transposed weights: row `r` of the left operand against row `q` of the weights. -/
theorem dot_wT_at (a : FVec Ideal S100000x64 .f32) (W : FVec Ideal S64x64 .f32) (r : Fin 100000) (q : Fin 64) :
    Host.dotGeneral dot_S100000x64_S64x64_S100000x64_1_0_0_1_n_n none a (transpose S64x64 [1, 0] W transposes_S64x64_S64x64_1_0) (ix2 r q)
      = ∑ k : Fin 64, a (ix2 r k) * W (ix2 q k) :=
  (dot_at a _ r q).trans (Finset.sum_congr rfl fun k _ => congrArg (a (ix2 r k) * ·) (wT_apply W k q))

/-- The broadcast zero and one, at any element. -/
theorem zero_at (j : S100000x64.Idx) :
    broadcastInDim S100000x64 ![] bcast_S_S100000x64 (constant (F := Ideal) S_ .f32 0x00000000#32) j = (0 : EReal) :=
  Ideal.ofBits_zero_f32
theorem one_at (j : S100000x64.Idx) :
    broadcastInDim S100000x64 ![] bcast_S_S100000x64 (constant (F := Ideal) S_ .f32 0x3F800000#32) j = (1 : EReal) :=
  one_f32

/-- The reference's layer (before the aggregation is looked into) at `(r, q)`. -/
theorem layer_apply (agg : FVec Ideal S100000x64 .f32) (inv : FVec Ideal S100000x1 .f32) (W : FVec Ideal S64x64 .f32)
    (brow : FVec Ideal S1x64 .f32) (r : Fin 100000) (q : Fin 64) :
    Spec.elu (F := Ideal) (Spec.affine agg inv W brow) (ix2 r q) = act (pre agg inv W brow r q) := by
  have h1 : Spec.elu (F := Ideal) (Spec.affine agg inv W brow) (ix2 r q)
      = actJ (Host.dotGeneral dot_S100000x64_S64x64_S100000x64_1_0_0_1_n_n none
            (mulf agg (broadcastInDim S100000x64 ![0, 1] bcast_S100000x1_S100000x64_0_1 inv))
            (transpose S64x64 [1, 0] W transposes_S64x64_S64x64_1_0) (ix2 r q)
          + broadcastInDim S100000x64 ![0, 1] bcast_S1x64_S100000x64_0_1 brow (ix2 r q)) := by
    unfold Spec.elu Spec.affine actJ
    simp only [select_apply, cmpf_apply, addf_apply, mulf_apply, expm1_apply, id_eq, Ideal.cmpf_def]
    rw [zero_at, one_at]
  rw [h1, actJ_eq, dot_wT_at, broadcastInDim_1b_ab_apply]
  unfold pre
  refine congrArg act (congrArg (· + brow (ix2 (0 : Fin 1) q)) (Finset.sum_congr rfl fun k _ => ?_))
  rw [mulf_apply, broadcastInDim_a1_ab_apply]

end Cert.ReferenceIdeal.Bridge

end
-- ==== Proof.KernelBlocks.lean ====
/-
  Each call's result array as ONE function of the arrays the call finds, for any contents `V` at the call's entry.

  A call runs its body at ten grid points. Point t stages rows 10000·t … 10000·t + 9999 of the aggregated
  features and of the reciprocal degrees, the whole weight matrix and the bias row, and writes back rows
  10000·t … 10000·t + 9999 of the result. The body's stored value at (p, q) of the block is the layer's value at
  (10000·t + p, q) of the whole arrays (the element-wise reading of both), so what point t writes back is block t
  of the reference's layer function; the ten blocks tile the result array (row r lies in block r / 10000), so the
  array after the call is that function.
-/
import proofs.«149167_j64725157151108_1_alg».proof.Proof.Gen.KernelIdeal.Frame
import proofs.«149167_j64725157151108_1_alg».proof.Proof.Layer
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.Layer Cert.KernelIdeal.Bridge

/-- The reference's layer on the arrays a call finds: the activation of the linear layer on the scaled aggregate. -/
abbrev G (agg : FVec Ideal S100000x64 .f32) (inv : FVec Ideal S100000x1 .f32) (W : FVec Ideal S64x64 .f32)
    (brow : FVec Ideal S1x64 .f32) : FVec Ideal S100000x64 .f32 :=
  Cert.ReferenceIdeal.Spec.elu (F := Ideal) (Cert.ReferenceIdeal.Spec.affine agg inv W brow)

theorem hz : (![0, 0] : Fin 2 → Nat) = fun _ => 0 := funext fun a => by fin_cases a <;> rfl

/-- One element of a block against one element of the whole arrays: if the block's row `p` of the aggregate and of
    the reciprocal degrees is row `r` of the whole arrays, and the weights and the bias row are staged whole, the
    body's value at `(p, q)` is the layer's at `(r, q)`. -/
theorem block_eq
    (pay : Vec Ideal S10000x64 .f32 → Vec Ideal S10000x1 .f32 → Vec Ideal S64x64 .f32 → Vec Ideal S1x64 .f32 → FVec Ideal S10000x64 .f32)
    (hpay : ∀ x0 x1 x2 x3 p q, pay x0 x1 x2 x3 (ix2 p q) = act (pre x0 x1 x2 x3 p q))
    (x0 : Vec Ideal S10000x64 .f32) (x1 : Vec Ideal S10000x1 .f32) (x2 : Vec Ideal S64x64 .f32) (x3 : Vec Ideal S1x64 .f32)
    (agg : FVec Ideal S100000x64 .f32) (inv : FVec Ideal S100000x1 .f32) (W : FVec Ideal S64x64 .f32) (brow : FVec Ideal S1x64 .f32)
    (i : S100000x64.Idx) (p : Fin 10000) (q : Fin 64) (r : Fin 100000)
    (hi : i = ix2 r q) (h0 : ∀ k : Fin 64, x0 (ix2 p k) = agg (ix2 r k))
    (h1 : x1 (ix2 p (0 : Fin 1)) = inv (ix2 r (0 : Fin 1))) (h2 : x2 = W) (h3 : x3 = brow) :
    pay x0 x1 x2 x3 (ix2 p q) = G agg inv W brow i := by
  subst hi h2 h3
  rw [hpay]
  show _ = Cert.ReferenceIdeal.Spec.elu (F := Ideal) (Cert.ReferenceIdeal.Spec.affine agg inv x2 x3) (ix2 r q)
  rw [Cert.ReferenceIdeal.Bridge.layer_apply]
  unfold pre
  simp only [h0, h1]

section Regions

variable (V : (c : Dev nD) → (b : Ref sig .tc) → Buf (Elt Ideal) ((c : Thread nD τ).loc b))

/-! ## Call 0 -/

/-- The printed index maps of call 0, decided over its ten grid points: the aggregated features, the reciprocal degrees
    and the result move one block of 10000 rows per point; the weights and the bias row stay at their one block. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- WHAT POINT `t` WRITES BACK is block `t` of the reference's layer function of the arrays the call finds. -/
theorem flushed0_eq (c : Dev nD) (t : Fin cfg0.N) :
    (dat0 V c).flushed 4 t = ((cfg0.win 4).blk t).view.read (Elt Ideal)
      (G (V c main_v21) (V c main_v11) (V c main_arg3) (V c main_v22)) := by
  show (cfg0.win 4).cut (grid0.coords t) ((dat0 V c).after 4 t) = _
  rw [after0_4]
  unfold out0_4
  rw [View.canon_unit_zero hz]
  simp only [View.ld_unit_zero (S := S10000x64) hz, View.ld_unit_zero (S := S10000x1) hz, View.ld_unit_zero (S := S64x64) hz,
    View.ld_unit_zero (S := S1x64) hz]
  obtain ⟨e00, e01, e10, e11, e20, e21, e30, e31, e40, e41⟩ := idx_facts0 t
  have ht : t.val < 10 := lt_of_lt_of_eq t.isLt N_0
  funext j
  obtain ⟨p, q, rfl⟩ : ∃ (p : Fin 10000) (q : Fin 64), j = ix2 p q := ⟨j 0, j 1, eq_ix2 j⟩
  have hr : t.val * 10000 + p.val < 100000 := by have := p.isLt; omega
  have hi : ((cfg0.win 4).blk t).view.emb (ix2 p q) = ix2 (⟨t.val * 10000 + p.val, hr⟩ : Fin 100000) q := by
    funext a; apply Fin.ext
    match a with
    | ⟨0, _⟩ => show win0_4.index t (0 : Fin 2) * 10000 + 1 * p.val = t.val * 10000 + p.val; omega
    | ⟨1, _⟩ => show win0_4.index t (1 : Fin 2) * 64 + 1 * q.val = q.val; omega
  have h0 : ∀ k : Fin 64, iblk0 V c 0 t (ix2 p k) = V c main_v21 (ix2 (⟨t.val * 10000 + p.val, hr⟩ : Fin 100000) k) := by
    intro k
    show V c main_v21 (((cfg0.win 0).blk t).view.emb (ix2 p k)) = V c main_v21 _
    refine congrArg _ (funext fun a => Fin.ext ?_)
    match a with
    | ⟨0, _⟩ => show win0_0.index t (0 : Fin 2) * 10000 + 1 * p.val = t.val * 10000 + p.val; omega
    | ⟨1, _⟩ => show win0_0.index t (1 : Fin 2) * 64 + 1 * k.val = k.val; omega
  have h1 : iblk0 V c 1 t (ix2 p (0 : Fin 1)) = V c main_v11 (ix2 (⟨t.val * 10000 + p.val, hr⟩ : Fin 100000) (0 : Fin 1)) := by
    show V c main_v11 (((cfg0.win 1).blk t).view.emb (ix2 p (0 : Fin 1))) = V c main_v11 _
    refine congrArg _ (funext fun a => Fin.ext ?_)
    match a with
    | ⟨0, _⟩ => show win0_1.index t (0 : Fin 2) * 10000 + 1 * p.val = t.val * 10000 + p.val; omega
    | ⟨1, _⟩ => show win0_1.index t (1 : Fin 2) * 1 + 1 * 0 = 0; omega
  have h2 : iblk0 V c 2 t = V c main_arg3 := by
    funext y
    show V c main_arg3 (((cfg0.win 2).blk t).view.emb y) = V c main_arg3 y
    refine congrArg _ (funext fun a => Fin.ext ?_)
    match a with
    | ⟨0, _⟩ => show win0_2.index t (0 : Fin 2) * 64 + 1 * (y 0).val = (y 0).val; omega
    | ⟨1, _⟩ => show win0_2.index t (1 : Fin 2) * 64 + 1 * (y 1).val = (y 1).val; omega
  have h3 : iblk0 V c 3 t = V c main_v22 := by
    funext y
    show V c main_v22 (((cfg0.win 3).blk t).view.emb y) = V c main_v22 y
    refine congrArg _ (funext fun a => Fin.ext ?_)
    match a with
    | ⟨0, _⟩ => show win0_3.index t (0 : Fin 2) * 1 + 1 * (y 0).val = (y 0).val; omega
    | ⟨1, _⟩ => show win0_3.index t (1 : Fin 2) * 64 + 1 * (y 1).val = (y 1).val; omega
  show k0_pay1 (F := Ideal) (iblk0 V c 0 t) (iblk0 V c 1 t) (iblk0 V c 2 t) (iblk0 V c 3 t) (ix2 p q)
    = G (V c main_v21) (V c main_v11) (V c main_arg3) (V c main_v22) (((cfg0.win 4).blk t).view.emb (ix2 p q))
  exact block_eq (k0_pay1 (F := Ideal)) pay0_apply (iblk0 V c 0 t) (iblk0 V c 1 t) (iblk0 V c 2 t) (iblk0 V c 3 t)
    (V c main_v21) (V c main_v11) (V c main_arg3) (V c main_v22) (((cfg0.win 4).blk t).view.emb (ix2 p q)) p q
    (⟨t.val * 10000 + p.val, hr⟩ : Fin 100000) hi h0 h1 h2 h3

/-- An index of the result array is in point `t`'s block iff each coordinate is in the block's range on its axis. -/
theorem mem_blk0 (t : Fin cfg0.N) (i : S100000x64.Idx) :
    i ∈ ((cfg0.win 4).blk t).view.set ↔ ∀ a : Fin 2, win0_4.index t a * S10000x64.size a ≤ (i a).val
      ∧ (i a).val < win0_4.index t a * S10000x64.size a + S10000x64.size a := by
  show i ∈ ((View.whole main_v23).slice (win0_4.rect t)).set ↔ _
  rw [View.set_slice_whole, Rect.mem_set_unit]
  exact Iff.rfl

/-- Every row of the result is in the block of the point `row / 10000`, which writes it back. -/
theorem cover0 (i : S100000x64.Idx) :
    ∃ t : Fin cfg0.N, (cfg0.win 4).flush t = true ∧ i ∈ ((cfg0.win 4).blk t).view.set := by
  have hi0 : (i 0).val < 100000 := (i 0).isLt
  have hi1 : (i 1).val < 64 := (i 1).isLt
  have hlt : (i 0).val / 10000 < cfg0.N := lt_of_lt_of_eq (show (i 0).val / 10000 < 10 by omega) N_0.symm
  refine ⟨⟨(i 0).val / 10000, hlt⟩, flush0_4 _, ?_⟩
  rw [mem_blk0]
  obtain ⟨e00, e01, e10, e11, e20, e21, e30, e31, e40, e41⟩ := idx_facts0 ⟨(i 0).val / 10000, hlt⟩
  intro a
  match a with
  | ⟨0, _⟩ =>
    show win0_4.index ⟨(i 0).val / 10000, hlt⟩ (0 : Fin 2) * 10000 ≤ (i 0).val
      ∧ (i 0).val < win0_4.index ⟨(i 0).val / 10000, hlt⟩ (0 : Fin 2) * 10000 + 10000
    rw [e40]; show (i 0).val / 10000 * 10000 ≤ (i 0).val ∧ (i 0).val < (i 0).val / 10000 * 10000 + 10000; omega
  | ⟨1, _⟩ =>
    show win0_4.index ⟨(i 0).val / 10000, hlt⟩ (1 : Fin 2) * 64 ≤ (i 1).val
      ∧ (i 1).val < win0_4.index ⟨(i 0).val / 10000, hlt⟩ (1 : Fin 2) * 64 + 64
    rw [e41]; omega

/-- THE RESULT ARRAY after call 0: the layer function of the arrays the call finds. -/
theorem final0 (c : Dev nD) :
    (dat0 V c).arrAt 4 cfg0.N = G (V c main_v21) (V c main_v11) (V c main_arg3) (V c main_v22) :=
  (dat0 V c).arrAt_eq_of_cover 4 _ (fun t _ => flushed0_eq V c t) cover0

/-! ## Call 1 -/

/-- The printed index maps of call 1, decided over its ten grid points: as for call 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- WHAT POINT `t` WRITES BACK is block `t` of the reference's layer function of the arrays the call finds. -/
theorem flushed1_eq (c : Dev nD) (t : Fin cfg1.N) :
    (dat1 V c).flushed 4 t = ((cfg1.win 4).blk t).view.read (Elt Ideal)
      (G (V c main_v33) (V c main_v11) (V c main_arg5) (V c main_v34)) := by
  show (cfg1.win 4).cut (grid1.coords t) ((dat1 V c).after 4 t) = _
  rw [after1_4]
  unfold out1_4
  rw [View.canon_unit_zero hz]
  simp only [View.ld_unit_zero (S := S10000x64) hz, View.ld_unit_zero (S := S10000x1) hz, View.ld_unit_zero (S := S64x64) hz,
    View.ld_unit_zero (S := S1x64) hz]
  obtain ⟨e00, e01, e10, e11, e20, e21, e30, e31, e40, e41⟩ := idx_facts1 t
  have ht : t.val < 10 := lt_of_lt_of_eq t.isLt N_1
  funext j
  obtain ⟨p, q, rfl⟩ : ∃ (p : Fin 10000) (q : Fin 64), j = ix2 p q := ⟨j 0, j 1, eq_ix2 j⟩
  have hr : t.val * 10000 + p.val < 100000 := by have := p.isLt; omega
  have hi : ((cfg1.win 4).blk t).view.emb (ix2 p q) = ix2 (⟨t.val * 10000 + p.val, hr⟩ : Fin 100000) q := by
    funext a; apply Fin.ext
    match a with
    | ⟨0, _⟩ => show win1_4.index t (0 : Fin 2) * 10000 + 1 * p.val = t.val * 10000 + p.val; omega
    | ⟨1, _⟩ => show win1_4.index t (1 : Fin 2) * 64 + 1 * q.val = q.val; omega
  have h0 : ∀ k : Fin 64, iblk1 V c 0 t (ix2 p k) = V c main_v33 (ix2 (⟨t.val * 10000 + p.val, hr⟩ : Fin 100000) k) := by
    intro k
    show V c main_v33 (((cfg1.win 0).blk t).view.emb (ix2 p k)) = V c main_v33 _
    refine congrArg _ (funext fun a => Fin.ext ?_)
    match a with
    | ⟨0, _⟩ => show win1_0.index t (0 : Fin 2) * 10000 + 1 * p.val = t.val * 10000 + p.val; omega
    | ⟨1, _⟩ => show win1_0.index t (1 : Fin 2) * 64 + 1 * k.val = k.val; omega
  have h1 : iblk1 V c 1 t (ix2 p (0 : Fin 1)) = V c main_v11 (ix2 (⟨t.val * 10000 + p.val, hr⟩ : Fin 100000) (0 : Fin 1)) := by
    show V c main_v11 (((cfg1.win 1).blk t).view.emb (ix2 p (0 : Fin 1))) = V c main_v11 _
    refine congrArg _ (funext fun a => Fin.ext ?_)
    match a with
    | ⟨0, _⟩ => show win1_1.index t (0 : Fin 2) * 10000 + 1 * p.val = t.val * 10000 + p.val; omega
    | ⟨1, _⟩ => show win1_1.index t (1 : Fin 2) * 1 + 1 * 0 = 0; omega
  have h2 : iblk1 V c 2 t = V c main_arg5 := by
    funext y
    show V c main_arg5 (((cfg1.win 2).blk t).view.emb y) = V c main_arg5 y
    refine congrArg _ (funext fun a => Fin.ext ?_)
    match a with
    | ⟨0, _⟩ => show win1_2.index t (0 : Fin 2) * 64 + 1 * (y 0).val = (y 0).val; omega
    | ⟨1, _⟩ => show win1_2.index t (1 : Fin 2) * 64 + 1 * (y 1).val = (y 1).val; omega
  have h3 : iblk1 V c 3 t = V c main_v34 := by
    funext y
    show V c main_v34 (((cfg1.win 3).blk t).view.emb y) = V c main_v34 y
    refine congrArg _ (funext fun a => Fin.ext ?_)
    match a with
    | ⟨0, _⟩ => show win1_3.index t (0 : Fin 2) * 1 + 1 * (y 0).val = (y 0).val; omega
    | ⟨1, _⟩ => show win1_3.index t (1 : Fin 2) * 64 + 1 * (y 1).val = (y 1).val; omega
  show k1_pay1 (F := Ideal) (iblk1 V c 0 t) (iblk1 V c 1 t) (iblk1 V c 2 t) (iblk1 V c 3 t) (ix2 p q)
    = G (V c main_v33) (V c main_v11) (V c main_arg5) (V c main_v34) (((cfg1.win 4).blk t).view.emb (ix2 p q))
  exact block_eq (k1_pay1 (F := Ideal)) pay1_apply (iblk1 V c 0 t) (iblk1 V c 1 t) (iblk1 V c 2 t) (iblk1 V c 3 t)
    (V c main_v33) (V c main_v11) (V c main_arg5) (V c main_v34) (((cfg1.win 4).blk t).view.emb (ix2 p q)) p q
    (⟨t.val * 10000 + p.val, hr⟩ : Fin 100000) hi h0 h1 h2 h3

/-- An index of the result array is in point `t`'s block iff each coordinate is in the block's range on its axis. -/
theorem mem_blk1 (t : Fin cfg1.N) (i : S100000x64.Idx) :
    i ∈ ((cfg1.win 4).blk t).view.set ↔ ∀ a : Fin 2, win1_4.index t a * S10000x64.size a ≤ (i a).val
      ∧ (i a).val < win1_4.index t a * S10000x64.size a + S10000x64.size a := by
  show i ∈ ((View.whole main_v35).slice (win1_4.rect t)).set ↔ _
  rw [View.set_slice_whole, Rect.mem_set_unit]
  exact Iff.rfl

/-- Every row of the result is in the block of the point `row / 10000`, which writes it back. -/
theorem cover1 (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hlt : (i 0).val / 10000 < cfg1.N := lt_of_lt_of_eq (show (i 0).val / 10000 < 10 by omega) N_1.symm
  refine ⟨⟨(i 0).val / 10000, hlt⟩, flush1_4 _, ?_⟩
  rw [mem_blk1]
  obtain ⟨e00, e01, e10, e11, e20, e21, e30, e31, e40, e41⟩ := idx_facts1 ⟨(i 0).val / 10000, hlt⟩
  intro a
  match a with
  | ⟨0, _⟩ =>
    show win1_4.index ⟨(i 0).val / 10000, hlt⟩ (0 : Fin 2) * 10000 ≤ (i 0).val
      ∧ (i 0).val < win1_4.index ⟨(i 0).val / 10000, hlt⟩ (0 : Fin 2) * 10000 + 10000
    rw [e40]; show (i 0).val / 10000 * 10000 ≤ (i 0).val ∧ (i 0).val < (i 0).val / 10000 * 10000 + 10000; omega
  | ⟨1, _⟩ =>
    show win1_4.index ⟨(i 0).val / 10000, hlt⟩ (1 : Fin 2) * 64 ≤ (i 1).val
      ∧ (i 1).val < win1_4.index ⟨(i 0).val / 10000, hlt⟩ (1 : Fin 2) * 64 + 64
    rw [e41]; omega

/-- THE RESULT ARRAY after call 1: the layer function of the arrays the call finds. -/
theorem final1 (c : Dev nD) :
    (dat1 V c).arrAt 4 cfg1.N = G (V c main_v33) (V c main_v11) (V c main_arg5) (V c main_v34) :=
  (dat1 V c).arrAt_eq_of_cover 4 _ (fun t _ => flushed1_eq V c t) cover1

end Regions

end Cert.KernelIdeal.Blocks

end
-- ==== Proof.KernelValue.lean ====
/-
  The kernel program's result buffer after the run, as the reference's two-layer function of the argument arrays.

  Reading the contents at each boundary of @main backwards from the end: the result buffer is the second call's
  result array, which is the layer function of what that call finds; the host operations before it aggregate the
  first call's result over the edges and lay the second bias out as a row, leaving the reciprocal degrees and the
  weights as they were; the first call's result array is the layer function of what it finds; and the host
  operations before it compute the reciprocal degrees, aggregate the input features and lay the first bias out as a
  row. The host operations on both programs are the same operations of the same arrays; a bias laid out as a row by
  a reshape or by a broadcast is the same row.
-/
import proofs.«149167_j64725157151108_1_alg».proof.Proof.KernelBlocks
import Idealize.ShloMosaic.Lib.StableHlo.Run

set_option maxRecDepth 16384

noncomputable section

namespace Cert.KernelIdeal.Result

open Cert.KernelIdeal Cert.KernelIdeal.Gen Idealize.ShloMosaic Idealize.ShloMosaic.TcCoe Idealize.ShloMosaic.ValueIdx Idealize.SL.Sem
open Idealize.ShloMosaic.StableHlo
open Cert.KernelIdeal.Blocks

/-- A vector laid out as one row by a reshape is the row a broadcast along a new leading axis makes. -/
theorem row_eq {α : Type} (b : (⟨1, ![64]⟩ : Shape).Idx → α) (h : (⟨1, ![64]⟩ : Shape).ShapeCasts ⟨2, ![1, 64]⟩)
    (h' : (⟨1, ![64]⟩ : Shape).BroadcastsInDim ⟨2, ![1, 64]⟩ ![1]) :
    shapeCast ⟨2, ![1, 64]⟩ b h = broadcastInDim ⟨2, ![1, 64]⟩ ![1] h' b := by
  funext j
  obtain ⟨u, i, rfl⟩ : ∃ (u : Fin 1) (i : Fin 64), j = ix2 u i := ⟨j 0, j 1, eq_ix2 j⟩
  rw [shapeCast_a_1a_apply]
  refine (broadcastInDim_apply ![1] h' b (ix2 u i) (ix1 i) fun a => ?_).symm
  match a with
  | ⟨0, _⟩ => show i.val = if (64 : ℕ) = 1 then 0 else i.val; rw [if_neg (by decide)]

/-! ## The host operations before each call, read at the buffers the call stages -/

section Host

variable (X : Valuation τ sig (Elt Ideal))

/-- Before the first call: the aggregate of the input features over the edges. -/
theorem pre0_agg : after hostOps0_2 (after hostOps0_1 (after hostOps0 X)) (Proc.devRef .tc main_v21)
    = Cert.ReferenceIdeal.Spec.aggr (F := Ideal) (X (Proc.devRef .tc main_arg0)) (X (Proc.devRef .tc main_arg1)) (X (Proc.devRef .tc main_arg2)) := by
  dsimp only [hostOps0, hostOps0_1, hostOps0_2]
  after_results_simp
  rfl

/-- The first stretch leaves the in-degree's comparison with zero, the reciprocal of its maximum with one, and the zero
    the isolated nodes get; -/
theorem ops0_pos : after hostOps0 X (Proc.devRef .tc main_v5)
    = cmpf .ogt (Cert.ReferenceIdeal.Spec.degree (F := Ideal) (X (Proc.devRef .tc main_arg2)))
        (broadcastInDim S100000 ![] bcast_S_S100000 (constant (F := Ideal) S_ .f32 0x00000000#32)) := by
  dsimp only [hostOps0]
  after_results_simp
  rfl
theorem ops0_recip : after hostOps0 X (Proc.devRef .tc main_v9)
    = Host.divf (broadcastInDim S100000 ![] bcast_S_S100000 (constant (F := Ideal) S_ .f32 0x3F800000#32))
        (maximumf (Cert.ReferenceIdeal.Spec.degree (F := Ideal) (X (Proc.devRef .tc main_arg2)))
          (broadcastInDim S100000 ![] bcast_S_S100000 (constant (F := Ideal) S_ .f32 0x3F800000#32))) := by
  dsimp only [hostOps0]
  after_results_simp
  rfl
theorem ops0_zero : after hostOps0 X (Proc.devRef .tc main_cst_4) = constant (F := Ideal) S_ .f32 0x00000000#32 := by
  dsimp only [hostOps0]
  after_results_simp

/-- the outlined select picks between them; -/
theorem ops01_sel : after hostOps0_1 X (Proc.devRef .tc main_v10)
    = select (X (Proc.devRef .tc main_v5)) (X (Proc.devRef .tc main_v9))
        (broadcastInDim S100000 ![] bcast_S_S100000 (id (X (Proc.devRef .tc main_cst_4)))) := by
  dsimp only [hostOps0_1]
  after_results_simp
  rfl

/-- and the third stretch lays the result out as a column. -/
theorem ops02_col : after hostOps0_2 X (Proc.devRef .tc main_v11)
    = broadcastInDim S100000x1 ![0] bcast_S100000_S100000x1_0 (X (Proc.devRef .tc main_v10)) := by
  dsimp only [hostOps0_2]
  after_results_simp

/-- … the reciprocal in-degrees as a column. -/
theorem pre0_inv : after hostOps0_2 (after hostOps0_1 (after hostOps0 X)) (Proc.devRef .tc main_v11)
    = Cert.ReferenceIdeal.Spec.invDeg (F := Ideal) (X (Proc.devRef .tc main_arg2)) := by
  rw [ops02_col, ops01_sel, ops0_pos, ops0_recip, ops0_zero]
  rfl

/-- … the first bias as a row. -/
theorem pre0_row : after hostOps0_2 (after hostOps0_1 (after hostOps0 X)) (Proc.devRef .tc main_v22)
    = shapeCast S1x64 (X (Proc.devRef .tc main_arg4)) shapeCasts_S64_S1x64 := by
  dsimp only [hostOps0, hostOps0_1, hostOps0_2]
  after_results_simp
  rfl

/-- … and the arguments the later items read, untouched. -/
theorem pre0_arg1 : after hostOps0_2 (after hostOps0_1 (after hostOps0 X)) (Proc.devRef .tc main_arg1) = X (Proc.devRef .tc main_arg1) := by
  dsimp only [hostOps0, hostOps0_1, hostOps0_2]
  after_results_simp
theorem pre0_arg2 : after hostOps0_2 (after hostOps0_1 (after hostOps0 X)) (Proc.devRef .tc main_arg2) = X (Proc.devRef .tc main_arg2) := by
  dsimp only [hostOps0, hostOps0_1, hostOps0_2]
  after_results_simp
theorem pre0_arg3 : after hostOps0_2 (after hostOps0_1 (after hostOps0 X)) (Proc.devRef .tc main_arg3) = X (Proc.devRef .tc main_arg3) := by
  dsimp only [hostOps0, hostOps0_1, hostOps0_2]
  after_results_simp
theorem pre0_arg5 : after hostOps0_2 (after hostOps0_1 (after hostOps0 X)) (Proc.devRef .tc main_arg5) = X (Proc.devRef .tc main_arg5) := by
  dsimp only [hostOps0, hostOps0_1, hostOps0_2]
  after_results_simp
theorem pre0_arg6 : after hostOps0_2 (after hostOps0_1 (after hostOps0 X)) (Proc.devRef .tc main_arg6) = X (Proc.devRef .tc main_arg6) := by
  dsimp only [hostOps0, hostOps0_1, hostOps0_2]
  after_results_simp

/-- Before the second call: the aggregate of the first call's result over the edges, -/
theorem pre1_agg : after hostOps1 X (Proc.devRef .tc main_v33)
    = Cert.ReferenceIdeal.Spec.aggr (F := Ideal) (X (Proc.devRef .tc main_v23)) (X (Proc.devRef .tc main_arg1)) (X (Proc.devRef .tc main_arg2)) := by
  dsimp only [hostOps1]
  after_results_simp
  rfl

/-- the second bias as a row, -/
theorem pre1_row : after hostOps1 X (Proc.devRef .tc main_v34)
    = shapeCast S1x64 (X (Proc.devRef .tc main_arg6)) shapeCasts_S64_S1x64 := by
  dsimp only [hostOps1]
  after_results_simp
  rfl

/-- and the reciprocal degrees and the second weights as they were. -/
theorem pre1_inv : after hostOps1 X (Proc.devRef .tc main_v11) = X (Proc.devRef .tc main_v11) := by
  dsimp only [hostOps1]
  after_results_simp
theorem pre1_arg5 : after hostOps1 X (Proc.devRef .tc main_arg5) = X (Proc.devRef .tc main_arg5) := by
  dsimp only [hostOps1]
  after_results_simp

end Host

/-! ## The result -/

variable (m : (ℓ : Loc nD τ sig) → Buf (Elt Ideal) ℓ) (ρ : Dev nD → PrngReg)

/-- The first call's result array, from the launch contents. -/
theorem first (c : Dev nD) :
    W4 m ρ c (Proc.devRef .tc main_v23)
      = Cert.ReferenceIdeal.Spec.layer (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  have e : W4 m ρ c (Proc.devRef .tc main_v23) = (dat0 (V3 m ρ) c).arrAt 4 cfg0.N := W4_arr m ρ c 4
  rw [e, final0 (V3 m ρ) c]
  have a0 : V3 m ρ c main_v21 = _ := pre0_agg (W0 m ρ c)
  have a1 : V3 m ρ c main_v11 = _ := pre0_inv (W0 m ρ c)
  have a2 : V3 m ρ c main_arg3 = _ := pre0_arg3 (W0 m ρ c)
  have a3 : V3 m ρ c main_v22 = _ := pre0_row (W0 m ρ c)
  rw [a0, a1, a2, a3]
  unfold Cert.ReferenceIdeal.Spec.layer Cert.ReferenceIdeal.Spec.layerRow
  rw [row_eq _ shapeCasts_S64_S1x64 Cert.ReferenceIdeal.Gen.bcast_S64_S1x64_1]

/-- THE RESULT BUFFER at the end of @main is the reference's two-layer function of the arguments as launched. -/
theorem value (c : Dev nD) :
    W6 m ρ c (Proc.devRef .tc main_v35)
      = Cert.ReferenceIdeal.Spec.out (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  have e : W6 m ρ c (Proc.devRef .tc main_v35) = (dat1 (V5 m ρ) c).arrAt 4 cfg1.N := W6_arr m ρ c 4
  rw [e, final1 (V5 m ρ) c]
  have a0 : V5 m ρ c main_v33 = _ := pre1_agg (W4 m ρ c)
  have a1 : V5 m ρ c main_v11 = _ := pre1_inv (W4 m ρ c)
  have a2 : V5 m ρ c main_arg5 = _ := pre1_arg5 (W4 m ρ c)
  have a3 : V5 m ρ c main_v34 = _ := pre1_row (W4 m ρ c)
  rw [a0, a1, a2, a3, first m ρ c]
  have b1 : W4 m ρ c (Proc.devRef .tc main_arg1) = m ((c : Thread nD τ).loc main_arg1) :=
    (W4_of_ne m ρ c main_arg1 (by decide)).trans (pre0_arg1 (W0 m ρ c))
  have b2 : W4 m ρ c (Proc.devRef .tc main_arg2) = m ((c : Thread nD τ).loc main_arg2) :=
    (W4_of_ne m ρ c main_arg2 (by decide)).trans (pre0_arg2 (W0 m ρ c))
  have b5 : W4 m ρ c (Proc.devRef .tc main_arg5) = m ((c : Thread nD τ).loc main_arg5) :=
    (W4_of_ne m ρ c main_arg5 (by decide)).trans (pre0_arg5 (W0 m ρ c))
  have b6 : W4 m ρ c (Proc.devRef .tc main_arg6) = m ((c : Thread nD τ).loc main_arg6) :=
    (W4_of_ne m ρ c main_arg6 (by decide)).trans (pre0_arg6 (W0 m ρ c))
  have bi : W4 m ρ c (Proc.devRef .tc main_v11) = Cert.ReferenceIdeal.Spec.invDeg (F := Ideal) (m ((c : Thread nD τ).loc main_arg2)) :=
    ((W4_arr m ρ c 1).trans (((dat0 (V3 m ρ) c).arrAt_in 1 rfl _).trans (A_eq0 (V3 m ρ) c 1))).trans (pre0_inv (W0 m ρ c))
  rw [b1, b2, b5, b6, bi]
  unfold Cert.ReferenceIdeal.Spec.out
  conv_rhs => unfold Cert.ReferenceIdeal.Spec.layer Cert.ReferenceIdeal.Spec.layerRow
  rw [row_eq _ shapeCasts_S64_S1x64 Cert.ReferenceIdeal.Gen.bcast_S64_S1x64_1]
  rfl

end Cert.KernelIdeal.Result

end
-- ==== Proof.RefRun.lean ====
/-
  The reference program's run, written out. Its @main is a straight line once the functions jax outlined
  (`_where`, `elu` and the two selects inside it) are unfolded at their calls: ninety host operations, each
  writing one buffer of its own. Every weakly fair execution therefore terminates with each buffer at the
  fold of those operations over the launch contents; read at the result buffer the fold is the two-layer
  function `Spec.out` of the seven argument arrays, and at an argument buffer it is the launch contents
  (no operation writes an argument).
-/
import proofs.«149167_j64725157151108_1_alg».proof.Proof.RefSpec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded: sixteen for the in-degree, three for the `_where` that
    zeroes the isolated nodes, then per layer twenty-one of @main's own (the wrapped source index, the gather, the
    scatter-add, the scaling, the product with the transposed weights, the bias) and fifteen for `elu`. -/
abbrev ops : List (HloOp τ sig (Elt F)) :=
  [ nullary main_cst (constant S_ .f32 0x3F800000#32),
    unary main_cst main_v0 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v1 (broadcastInDim S100000 ![] bcast_S_S100000 : (⟨S_, .f32⟩ : BufTy).Contents (Elt F) → (⟨S100000, .f32⟩ : BufTy).Contents (Elt F)),
    unary main_arg2 main_v2 (broadcastInDim S1600000x1 ![0] bcast_S1600000_S1600000x1_0 : (⟨S1600000, .i32⟩ : BufTy).Contents (Elt F) → (⟨S1600000x1, .i32⟩ : BufTy).Contents (Elt F)),
    ternary main_v1 main_v2 main_v0 main_v3 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x00000000#32),
    unary main_cst_1 main_v4 (broadcastInDim S100000 ![] bcast_S_S100000 : (⟨S_, .f32⟩ : BufTy).Contents (Elt F) → (⟨S100000, .f32⟩ : BufTy).Contents (Elt F)),
    binary main_v3 main_v4 main_v5 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v6 (broadcastInDim S100000 ![] bcast_S_S100000 : (⟨S_, .f32⟩ : BufTy).Contents (Elt F) → (⟨S100000, .f32⟩ : BufTy).Contents (Elt F)),
    binary main_v3 main_v6 main_v7 (maximumf : (⟨S100000, .f32⟩ : BufTy).Contents (Elt F) → (⟨S100000, .f32⟩ : BufTy).Contents (Elt F) → (⟨S100000, .f32⟩ : BufTy).Contents (Elt F)),
    nullary main_cst_3 (constant S_ .f32 0x3F800000#32),
    unary main_cst_3 main_v8 (broadcastInDim S100000 ![] bcast_S_S100000 : (⟨S_, .f32⟩ : BufTy).Contents (Elt F) → (⟨S100000, .f32⟩ : BufTy).Contents (Elt F)),
    binary main_v8 main_v7 main_v9 (Host.divf : (⟨S100000, .f32⟩ : BufTy).Contents (Elt F) → (⟨S100000, .f32⟩ : BufTy).Contents (Elt F) → (⟨S100000, .f32⟩ : BufTy).Contents (Elt F)),
    nullary main_cst_4 (constant S_ .f32 0x00000000#32),
    TRef.unary (.of main_cst_4) main_call0.v0 id,
    TRef.unary main_call0.v0 main_call0.v1 (broadcastInDim S100000 ![] bcast_S_S100000),
    TRef.ternary (.of main_v5) (.of main_v9) main_call0.v1 main_call0.v2 select,
    unary main_v10 main_v11 (broadcastInDim S100000x1 ![0] bcast_S100000_S100000x1_0 : (⟨S100000, .f32⟩ : BufTy).Contents (Elt F) → (⟨S100000x1, .f32⟩ : BufTy).Contents (Elt F)),
    nullary main_c (constantI S_ 32 0#32),
    unary main_c main_v12 (broadcastInDim S1600000 ![] bcast_S_S1600000 : (⟨S_, .i32⟩ : BufTy).Contents (Elt F) → (⟨S1600000, .i32⟩ : BufTy).Contents (Elt F)),
    binary main_arg1 main_v12 main_v13 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 100000#32),
    unary main_c_5 main_v14 (broadcastInDim S1600000 ![] bcast_S_S1600000 : (⟨S_, .i32⟩ : BufTy).Contents (Elt F) → (⟨S1600000, .i32⟩ : BufTy).Contents (Elt F)),
    binary main_arg1 main_v14 main_v15 (addi : (⟨S1600000, .i32⟩ : BufTy).Contents (Elt F) → (⟨S1600000, .i32⟩ : BufTy).Contents (Elt F) → (⟨S1600000, .i32⟩ : BufTy).Contents (Elt F)),
    ternary main_v13 main_v15 main_arg1 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v16 main_v17 (broadcastInDim S1600000x1 ![0] bcast_S1600000_S1600000x1_0 : (⟨S1600000, .i32⟩ : BufTy).Contents (Elt F) → (⟨S1600000x1, .i32⟩ : BufTy).Contents (Elt F)),
    binary main_arg0 main_v17 main_v18 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_6 (constant S_ .f32 0x00000000#32),
    unary main_cst_6 main_v19 (broadcastInDim S100000x64 ![] bcast_S_S100000x64 : (⟨S_, .f32⟩ : BufTy).Contents (Elt F) → (⟨S100000x64, .f32⟩ : BufTy).Contents (Elt F)),
    unary main_arg2 main_v20 (broadcastInDim S1600000x1 ![0] bcast_S1600000_S1600000x1_0 : (⟨S1600000, .i32⟩ : BufTy).Contents (Elt F) → (⟨S1600000x1, .i32⟩ : BufTy).Contents (Elt F)),
    ternary main_v19 main_v20 main_v18 main_v21 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_v11 main_v22 (broadcastInDim S100000x64 ![0, 1] bcast_S100000x1_S100000x64_0_1 : (⟨S100000x1, .f32⟩ : BufTy).Contents (Elt F) → (⟨S100000x64, .f32⟩ : BufTy).Contents (Elt F)),
    binary main_v21 main_v22 main_v23 (mulf : (⟨S100000x64, .f32⟩ : BufTy).Contents (Elt F) → (⟨S100000x64, .f32⟩ : BufTy).Contents (Elt F) → (⟨S100000x64, .f32⟩ : BufTy).Contents (Elt F)),
    unary main_arg3 main_v24 ((transpose S64x64 [1, 0] · transposes_S64x64_S64x64_1_0) : (⟨S64x64, .f32⟩ : BufTy).Contents (Elt F) → (⟨S64x64, .f32⟩ : BufTy).Contents (Elt F)),
    binary main_v23 main_v24 main_v25 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg4 main_v26 (broadcastInDim S1x64 ![1] bcast_S64_S1x64_1 : (⟨S64, .f32⟩ : BufTy).Contents (Elt F) → (⟨S1x64, .f32⟩ : BufTy).Contents (Elt F)),
    unary main_v26 main_v27 (broadcastInDim S100000x64 ![0, 1] bcast_S1x64_S100000x64_0_1 : (⟨S1x64, .f32⟩ : BufTy).Contents (Elt F) → (⟨S100000x64, .f32⟩ : BufTy).Contents (Elt F)),
    binary main_v25 main_v27 main_v28 (addf : (⟨S100000x64, .f32⟩ : BufTy).Contents (Elt F) → (⟨S100000x64, .f32⟩ : BufTy).Contents (Elt F) → (⟨S100000x64, .f32⟩ : BufTy).Contents (Elt F)),
    TRef.nullary main_call1.cst (constant S_ .f32 0x00000000#32),
    TRef.unary main_call1.cst main_call1.v0 (broadcastInDim S100000x64 ![] bcast_S_S100000x64),
    TRef.binary (.of main_v28) main_call1.v0 main_call1.v1 (cmpf .ogt),
    TRef.nullary main_call1.cst_0 (constant S_ .f32 0x00000000#32),
    TRef.unary main_call1.cst_0 main_call1.v2 (broadcastInDim S100000x64 ![] bcast_S_S100000x64),
    TRef.binary (.of main_v28) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S100000x64 ![] bcast_S_S100000x64),
    TRef.ternary main_call1.v3 main_call1.call0.v1 (.of main_v28) main_call1.call0.v2 select,
    TRef.unary main_call1.call0.v2 main_call1.v5 Host.expm1,
    TRef.nullary main_call1.cst_2 (constant S_ .f32 0x3F800000#32),
    TRef.unary main_call1.cst_2 main_call1.v6 (broadcastInDim S100000x64 ![] bcast_S_S100000x64),
    TRef.binary main_call1.v6 main_call1.v5 main_call1.v7 mulf,
    TRef.ternary main_call1.v1 (.of main_v28) main_call1.v7 main_call1.call1.v0 select,
    nullary main_c_7 (constantI S_ 32 0#32),
    unary main_c_7 main_v30 (broadcastInDim S1600000 ![] bcast_S_S1600000 : (⟨S_, .i32⟩ : BufTy).Contents (Elt F) → (⟨S1600000, .i32⟩ : BufTy).Contents (Elt F)),
    binary main_arg1 main_v30 main_v31 (cmpi .slt : (⟨S1600000, .i32⟩ : BufTy).Contents (Elt F) → (⟨S1600000, .i32⟩ : BufTy).Contents (Elt F) → (⟨S1600000, .i1⟩ : BufTy).Contents (Elt F)),
    nullary main_c_8 (constantI S_ 32 100000#32),
    unary main_c_8 main_v32 (broadcastInDim S1600000 ![] bcast_S_S1600000 : (⟨S_, .i32⟩ : BufTy).Contents (Elt F) → (⟨S1600000, .i32⟩ : BufTy).Contents (Elt F)),
    binary main_arg1 main_v32 main_v33 (addi : (⟨S1600000, .i32⟩ : BufTy).Contents (Elt F) → (⟨S1600000, .i32⟩ : BufTy).Contents (Elt F) → (⟨S1600000, .i32⟩ : BufTy).Contents (Elt F)),
    ternary main_v31 main_v33 main_arg1 main_v34 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v34 main_v35 (broadcastInDim S1600000x1 ![0] bcast_S1600000_S1600000x1_0 : (⟨S1600000, .i32⟩ : BufTy).Contents (Elt F) → (⟨S1600000x1, .i32⟩ : BufTy).Contents (Elt F)),
    binary main_v29 main_v35 main_v36 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_9 (constant S_ .f32 0x00000000#32),
    unary main_cst_9 main_v37 (broadcastInDim S100000x64 ![] bcast_S_S100000x64 : (⟨S_, .f32⟩ : BufTy).Contents (Elt F) → (⟨S100000x64, .f32⟩ : BufTy).Contents (Elt F)),
    unary main_arg2 main_v38 (broadcastInDim S1600000x1 ![0] bcast_S1600000_S1600000x1_0 : (⟨S1600000, .i32⟩ : BufTy).Contents (Elt F) → (⟨S1600000x1, .i32⟩ : BufTy).Contents (Elt F)),
    ternary main_v37 main_v38 main_v36 main_v39 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_v11 main_v40 (broadcastInDim S100000x64 ![0, 1] bcast_S100000x1_S100000x64_0_1 : (⟨S100000x1, .f32⟩ : BufTy).Contents (Elt F) → (⟨S100000x64, .f32⟩ : BufTy).Contents (Elt F)),
    binary main_v39 main_v40 main_v41 (mulf : (⟨S100000x64, .f32⟩ : BufTy).Contents (Elt F) → (⟨S100000x64, .f32⟩ : BufTy).Contents (Elt F) → (⟨S100000x64, .f32⟩ : BufTy).Contents (Elt F)),
    unary main_arg5 main_v42 ((transpose S64x64 [1, 0] · transposes_S64x64_S64x64_1_0) : (⟨S64x64, .f32⟩ : BufTy).Contents (Elt F) → (⟨S64x64, .f32⟩ : BufTy).Contents (Elt F)),
    binary main_v41 main_v42 main_v43 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg6 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (addf : (⟨S100000x64, .f32⟩ : BufTy).Contents (Elt F) → (⟨S100000x64, .f32⟩ : BufTy).Contents (Elt F) → (⟨S100000x64, .f32⟩ : BufTy).Contents (Elt F)),
    TRef.nullary main_call2.cst (constant S_ .f32 0x00000000#32),
    TRef.unary main_call2.cst main_call2.v0 (broadcastInDim S100000x64 ![] bcast_S_S100000x64),
    TRef.binary (.of main_v46) main_call2.v0 main_call2.v1 (cmpf .ogt),
    TRef.nullary main_call2.cst_0 (constant S_ .f32 0x00000000#32),
    TRef.unary main_call2.cst_0 main_call2.v2 (broadcastInDim S100000x64 ![] bcast_S_S100000x64),
    TRef.binary (.of main_v46) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S100000x64 ![] bcast_S_S100000x64),
    TRef.ternary main_call2.v3 main_call2.call0.v1 (.of main_v46) main_call2.call0.v2 select,
    TRef.unary main_call2.call0.v2 main_call2.v5 Host.expm1,
    TRef.nullary main_call2.cst_2 (constant S_ .f32 0x3F800000#32),
    TRef.unary main_call2.cst_2 main_call2.v6 (broadcastInDim S100000x64 ![] bcast_S_S100000x64),
    TRef.binary main_call2.v6 main_call2.v5 main_call2.v7 mulf,
    TRef.ternary main_call2.v1 (.of main_v46) main_call2.v7 main_call2.call1.v0 select ]

-- ninety binds re-associated: the rewrite under the chain recurses once per statement
set_option maxRecDepth 4096 in
set_option maxHeartbeats 4000000 in
/-- @main is that straight line: its two windows in order, the functions' bodies unfolded at their calls and the
    call records at their fields; both sides are one chain of host steps once sequencing is re-associated. -/
theorem main_eq (c : Dev nD) : main (F := F) c = seq ops := by
  simp only [main, main_part0, main_part1, fn_where.body, fn_where_0.body, fn_where_1.body, fn_elu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., nullary_bufs_sub .., unary_bufs_sub .., unary_bufs_sub .., ternary_bufs_sub ..,
    nullary_bufs_sub .., unary_bufs_sub .., binary_bufs_sub .., nullary_bufs_sub .., unary_bufs_sub .., binary_bufs_sub ..,
    nullary_bufs_sub .., unary_bufs_sub .., binary_bufs_sub .., nullary_bufs_sub ..,
    unary_bufs_sub .., unary_bufs_sub .., ternary_bufs_sub ..,
    unary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., unary_bufs_sub .., binary_bufs_sub .., unary_bufs_sub .., binary_bufs_sub .., unary_bufs_sub ..,
    unary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., unary_bufs_sub .., binary_bufs_sub .., unary_bufs_sub .., binary_bufs_sub .., unary_bufs_sub ..,
    unary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..⟩

/-- Every weakly fair execution of @main terminates with every buffer at the fold of the ninety operations over
    the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The fold at the result buffer is the two-layer function of the argument buffers' contents: each operation's
    result read at its own buffer is its function of its operands' contents, and at any other buffer what was there. -/
theorem out_eq (V : Valuation τ sig (Elt F)) :
    after ops V (main_v47 : DevRef τ sig)
      = Spec.out (F := F) (V (main_arg0 : DevRef τ sig)) (V (main_arg1 : DevRef τ sig)) (V (main_arg2 : DevRef τ sig))
          (V (main_arg3 : DevRef τ sig)) (V (main_arg4 : DevRef τ sig)) (V (main_arg5 : DevRef τ sig)) (V (main_arg6 : DevRef τ sig)) := by
  after_results_simp
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp
theorem arg5_eq (V : Valuation τ sig (Elt F)) : after ops V (main_arg5 : DevRef τ sig) = V (main_arg5 : DevRef τ sig) := by
  after_results_simp
theorem arg6_eq (V : Valuation τ sig (Elt F)) : after ops V (main_arg6 : DevRef τ sig) = V (main_arg6 : DevRef τ sig) := by
  after_results_simp

/-- Every weakly fair execution of @main terminates with the result buffer at the two-layer function of the
    argument arrays as launched, and the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v47)
        = Spec.out (F := F) (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v47).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _)⟩)
    (run_all m ρ)

end Cert.ReferenceIdeal.RefRun

end
-- ==== Proof.lean ====
/-
  Two graph-convolution layers — mean of the incoming neighbours' features through a linear layer and an ELU — computed
  by a kernel program (the gather and the scatter-add on the host, the scaling by the reciprocal in-degree, the
  product with the transposed weights, the bias and the activation in a Pallas call tiled over the nodes) against the
  plain jnp reference, over the extended reals.

  Both programs aggregate with the same host operations on the same arrays. A call's body at a grid point computes,
  for a block of 10000 nodes, select (y > 0) y (e^y − 1) of y = (agg ⊙ inv) · Wᵀ + b; the reference computes
  select (y > 0) y (1 · expm1 (select (y > 0) 0 y)) of the same y on all nodes at once. Element by element these are
  one value (where y > 0 both are y; elsewhere the inner select is y, expm1 y = e^y − 1 and 1 · z = z), a change of
  float format is the identity, the matrix product into a zero accumulator and the host's dot product are the same
  sum over the contracted axis, and the ten blocks tile the node axis: each call's result array is the reference's
  layer function of the arrays it reads. Chaining the two calls through the host operations between them gives the
  reference's two-layer function of the arguments; the reference's own run gives the same function. No finiteness
  is needed: the two sides are the same expression tree up to 1 · z = z.

  The three frames: the kernel programs' are the generated ones; the reference's is its run with the result dropped.
  The idealization rewrote nothing, so `preserves` is `True`.
-/
import proofs.«149167_j64725157151108_1_alg».proof.Defs
import proofs.«149167_j64725157151108_1_alg».proof.Proof.Gen.Kernel
import proofs.«149167_j64725157151108_1_alg».proof.Proof.Gen.Kernel.Frame
import proofs.«149167_j64725157151108_1_alg».proof.Proof.Gen.KernelIdeal
import proofs.«149167_j64725157151108_1_alg».proof.Proof.Gen.KernelIdeal.Frame
import proofs.«149167_j64725157151108_1_alg».proof.Proof.Gen.ReferenceIdeal
import proofs.«149167_j64725157151108_1_alg».proof.Proof.Gen.Pre_finite_inputs
import proofs.«149167_j64725157151108_1_alg».proof.Proof.KernelRun
import proofs.«149167_j64725157151108_1_alg».proof.Proof.KernelValue
import proofs.«149167_j64725157151108_1_alg».proof.Proof.RefRun

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run keeps its arguments: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- Both programs end with the result at the two-layer function of the arguments, which agree. -/
theorem algebraic : Cert.algebraic_KernelIdeal_ReferenceIdeal := by
  intro m ρ m' ρ' _ hagree
  refine ⟨fun c => Cert.ReferenceIdeal.Spec.out (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Result.value m ρ c), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.RefRun.run (F := Ideal) m' ρ')
    obtain ⟨e0, e1, e2, e3, e4, e5, e6⟩ := hagree c
    rw [e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
